-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x2048 : Shape := ⟨2, ![128, 2048]⟩
abbrev S2048 : Shape := ⟨1, ![2048]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S100000x128 .f32) (main_arg1 : FVec F S128x2048 .f32) (main_arg2 : FVec F S2048 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S100000x128 : Shape := ⟨2, ![100000, 128]⟩
abbrev S128x2048 : Shape := ⟨2, ![128, 2048]⟩
abbrev S2048 : Shape := ⟨1, ![2048]⟩
abbrev S1x2048 : Shape := ⟨2, ![1, 2048]⟩
abbrev S100000x2048 : Shape := ⟨2, ![100000, 2048]⟩
abbrev S1000x128 : Shape := ⟨2, ![1000, 128]⟩
abbrev S1000x2048 : Shape := ⟨2, ![1000, 2048]⟩
abbrev S1000 : Shape := ⟨1, ![1000]⟩
abbrev S1000x1 : Shape := ⟨2, ![1000, 1]⟩

abbrev nBuf : Space → Nat
  | .hbm => 5
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x2048, .f32⟩
  | .hbm, ⟨2, _⟩ => ⟨S2048, .f32⟩
  | .hbm, ⟨3, _⟩ => ⟨S1x2048, .f32⟩
  | .hbm, ⟨4, _⟩ => ⟨S100000x2048, .f32⟩
  | .local _ .vmem, ⟨0, _⟩ => ⟨S1000x128, .f32⟩
  | .local _ .vmem, ⟨1, _⟩ => ⟨S1000x128, .f32⟩
  | .local _ .vmem, ⟨2, _⟩ => ⟨S128x2048, .f32⟩
  | .local _ .vmem, ⟨3, _⟩ => ⟨S1x2048, .f32⟩
  | .local _ .vmem, ⟨4, _⟩ => ⟨S1000x2048, .f32⟩
  | .local _ .vmem, ⟨5, _⟩ => ⟨S1000x2048, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S1000x128_S1000x128_0_0 : ∀ a, (![0, 0] : Fin 2 → Nat) a + S1000x128.size a ≤ S1000x128.size a
  h_S1000x128 : 0 < S1000x128.numel
  reduces_S1000x128_S1000 : S1000x128.Reduces [1] S1000
  shapeCasts_S1000_S1000x1 : S1000.ShapeCasts S1000x1
  broadcasts_S1000x1_S1000x128 : S1000x1.Broadcasts S1000x128
  inb_S128x2048_S128x2048_0_0 : ∀ a, (![0, 0] : Fin 2 → Nat) a + S128x2048.size a ≤ S128x2048.size a
  h_S128x2048 : 0 < S128x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1000x2048 : S1x2048.Broadcasts S1000x2048
  inb_S1000x2048_S1000x2048_0_0 : ∀ a, (![0, 0] : Fin 2 → Nat) a + S1000x2048.size a ≤ S1000x2048.size a
  h_S1000x2048 : 0 < S1000x2048.numel
  dot_S1000x128_S128x2048_S1000x2048_1_0_0_1_n_n_wf : DotDims.WF S1000x128 S128x2048 S1000x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x2048.size a ≤ S100000x2048.size a
  hwx0_3 : ∀ i : grid0.Coords, EltTy.bits .f32 = 32 ∨ (Rect.block (s := S100000x2048) S1000x2048.size (cc0_transform_3 i) (hinb0_3 i)).WholeWords (EltTy.packing .f32)

variable [Facts₀]

def dot_S1000x128_S128x2048_S1000x2048_1_0_0_1_n_n : DotDims S1000x128 S128x2048 S1000x2048 where
  lhsContracting := [1]
  rhsContracting := [0]
  lhsNonContracting := [0]
  rhsNonContracting := [1]
  lhsBatch := []
  rhsBatch := []
  wf := dot_S1000x128_S128x2048_S1000x2048_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x2048 : Shape := ⟨2, ![128, 2048]⟩
abbrev S2048 : Shape := ⟨1, ![2048]⟩
abbrev S_ : Shape := ⟨0, ![]⟩
abbrev S100000 : Shape := ⟨1, ![100000]⟩
abbrev S100000x1 : Shape := ⟨2, ![100000, 1]⟩
abbrev S100000x2048 : Shape := ⟨2, ![100000, 2048]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x2048, .f32⟩
  | .hbm, ⟨2, _⟩ => ⟨S2048, .f32⟩
  | .hbm, ⟨3, _⟩ => ⟨S100000x128, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S100000x1, .f32⟩
  | .hbm, ⟨8, _⟩ => ⟨S_, .f32⟩
  | .hbm, ⟨9, _⟩ => ⟨S100000x1, .f32⟩
  | .hbm, ⟨10, _⟩ => ⟨S100000x1, .f32⟩
  | .hbm, ⟨11, _⟩ => ⟨S_, .f32⟩
  | .hbm, ⟨12, _⟩ => ⟨S100000x1, .f32⟩
  | .hbm, ⟨13, _⟩ => ⟨S100000x1, .f32⟩
  | .hbm, ⟨14, _⟩ => ⟨S_, .f32⟩
  | .hbm, ⟨15, _⟩ => ⟨S100000x1, .f32⟩
  | .hbm, ⟨16, _⟩ => ⟨S100000x1, .f32⟩
  | .hbm, ⟨17, _⟩ => ⟨S100000x128, .f32⟩
  | .hbm, ⟨18, _⟩ => ⟨S100000x128, .f32⟩
  | .hbm, ⟨19, _⟩ => ⟨S100000x2048, .f32⟩
  | .hbm, ⟨20, _⟩ => ⟨S1x2048, .f32⟩
  | .hbm, ⟨21, _⟩ => ⟨S100000x2048, .f32⟩
  | .hbm, ⟨22, _⟩ => ⟨S100000x2048, .f32⟩
  | .hbm, ⟨23, _⟩ => ⟨S100000x2048, .f32⟩
  | .hbm, ⟨24, _⟩ => ⟨S_, .f32⟩
  | .hbm, ⟨25, _⟩ => ⟨S100000x2048, .f32⟩
  | .hbm, ⟨26, _⟩ => ⟨S100000x2048, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S2048_S1x2048_1 : S2048.BroadcastsInDim S1x2048 (![1] : Fin 1 → Fin S1x2048.rank)
  bcast_S1x2048_S100000x2048_0_1 : S1x2048.BroadcastsInDim S100000x2048 (![0, 1] : Fin 2 → Fin S100000x2048.rank)
  bcast_S_S100000x2048 : S_.BroadcastsInDim S100000x2048 (![] : Fin 0 → Fin S100000x2048.rank)
  dot_S100000x128_S128x2048_S100000x2048_1_0_0_1_n_n_wf : DotDims.WF S100000x128 S128x2048 S100000x2048 [1] [0] [0] [1] [] []

variable [Facts₀]

def dot_S100000x128_S128x2048_S100000x2048_1_0_0_1_n_n : DotDims S100000x128 S128x2048 S100000x2048 where
  lhsContracting := [1]
  rhsContracting := [0]
  lhsNonContracting := [0]
  rhsNonContracting := [1]
  lhsBatch := []
  rhsBatch := []
  wf := dot_S100000x128_S128x2048_S100000x2048_1_0_0_1_n_n_wf

class Facts : Prop extends Facts₀ where

variable [Facts]
-- ==== Proof.RowFeatures.lean ====
/-
  The mathematics both programs compute, one row at a time.

  A row `v` of the point table (128 coordinates) is first pulled back inside the ball: it is scaled by
  `clipFactor v = min 1 (c / max (√(Σₖ vₖ²)) ε)`, where `c`, `ε` and `1` are the three f32 words both programs
  print. The clipped row is then projected on the 2048 columns of the frequency matrix `w`, the phase `b` is added,
  and the feature is `⅛ · cos` of that: `feature v w b j = ⅛ · cos (Σₖ (vₖ · clipFactor v) · w k j + b j)`.
  Everything is read on the extended reals, where every operation is the exact one; the four literals stay as the
  words they are printed as, since the same word stands on both sides.

  Below the definitions: the two "keep the reduced axis as a unit column" layout readings the row norm needs — a
  vector `[a]` recast as a column `[a, 1]`, and a column `[a, 1]` spread over `b` lanes.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowFeatures

open Idealize.ShloMosaic Idealize.ShloMosaic.ValueIdx

/-- The factor that clips a row to the ball of radius `c`: `min 1 (c / max ‖v‖ ε)`, with `‖v‖ = √(Σₖ vₖ²)`. -/
def clipFactor (v : Fin 128 → EReal) : EReal :=
  min (Ideal.ofBits .f32 0x3F800000#32)
    (Ideal.div (Ideal.ofBits .f32 0x3F7FFF58#32)
      (max (Ideal.sqrt (∑ k : Fin 128, v k * v k)) (Ideal.ofBits .f32 0x3727C5AC#32)))

/-- Feature `j` of the row `v`: `⅛ · cos (Σₖ (vₖ · clipFactor v) · w k j + b j)`. -/
def feature (v : Fin 128 → EReal) (w : Fin 128 → Fin 2048 → EReal) (b : Fin 2048 → EReal) (j : Fin 2048) : EReal :=
  Ideal.ofBits .f32 0x3E000000#32 * Ideal.cos ((∑ k : Fin 128, (v k * clipFactor v) * w k j) + b j)

/-- The whole table of features: entry `(r, q)` is feature `q` of row `r` of the point table `X`, for the frequency
    matrix `W` and the phase vector `B`. -/
def tableFeatures (X : (⟨2, ![100000, 128]⟩ : Shape).Idx → EReal) (W : (⟨2, ![128, 2048]⟩ : Shape).Idx → EReal)
    (B : (⟨1, ![2048]⟩ : Shape).Idx → EReal) : (⟨2, ![100000, 2048]⟩ : Shape).Idx → EReal :=
  fun i => feature (fun k => X (ix2 (⟨(i 0).val, idx2_lt0 i⟩ : Fin 100000) k)) (fun k j => W (ix2 k j)) (fun j => B (ix1 j))
    (⟨(i 1).val, idx2_lt1 i⟩ : Fin 2048)

/-- The table at the entry built from the coordinates `r`, `q`. -/
theorem tableFeatures_apply (X : (⟨2, ![100000, 128]⟩ : Shape).Idx → EReal) (W : (⟨2, ![128, 2048]⟩ : Shape).Idx → EReal)
    (B : (⟨1, ![2048]⟩ : Shape).Idx → EReal) (r : Fin 100000) (q : Fin 2048) :
    tableFeatures X W B (ix2 r q) = feature (fun k => X (ix2 r k)) (fun k j => W (ix2 k j)) (fun j => B (ix1 j)) q := rfl

variable {α : Type}

/-- A vector `[a]` recast as a column `[a, 1]` reads, at `(i, u)`, the vector at `i`: the two positions in row-major
    order are `i` and `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.RowFeatures

end
-- ==== Proof.KernelRow.lean ====
/-
  What the kernel's body stores, read one entry at a time.

  The body takes a block of 1000 rows of the point table (`x0`), the whole frequency matrix (`x1`) and the phase
  row (`x2`), and stores ONE 1000 × 2048 value. Read at entry `(p, q)` that value depends on the block only through
  its row `p`: it is `RowFeatures.feature` of that row, of the matrix and of the phase row, at column `q`.
  The steps that are not entry-by-entry are read one by one: the lane sum of the squares of row `p`
  (`rowSq_apply`), the clipping factor kept as a unit column and spread back over the 128 lanes (`clipCol_apply`),
  and the product with the matrix, a sum over the 128 contracted coordinates (`proj_apply`).
-/
import proofs.«429634_j2010044695328_3_alg».proof.Proof.Gen.KernelIdeal.Skeleton
import proofs.«429634_j2010044695328_3_alg».proof.Proof.RowFeatures

noncomputable section

open scoped BigOperators

namespace Cert.KernelIdeal.RowValue

open Cert.KernelIdeal Cert.KernelIdeal.Gen Cert.KernelIdeal.Facts₀ Cert.KernelIdeal.Facts
open Idealize.ShloMosaic Idealize.ShloMosaic.ValueIdx Cert.RowFeatures

/-- The lane sum of the squares of a block, at row `p`: `Σₖ x0[p, k]²`. -/
theorem rowSq_apply (x0 : FVec Ideal S1000x128 .f32) (h : S1000x128.Reduces [1] S1000) (hφ : FKind.Formats .f32)
    (hacc : (0x00000000#32 : BitVec 32) = FKind.add.neutral .f32 hφ) (p : Fin 1000) :
    multiReduction .add [1] S1000 (mulf x0 x0) 0x00000000#32 h hφ hacc (ix1 p) = ∑ k : Fin 128, x0 (ix2 p k) * x0 (ix2 p k) := by
  refine (Ideal.multiReduction_add_single (mulf x0 x0) 0x00000000#32 h hφ hacc (ix1 p)).trans ?_
  refine Finset.sum_congr rfl fun k _ => ?_
  have e : h.lift (ix1 p) k = ix2 p k := funext fun a => Fin.ext (by
    match a with
    | ⟨0, _⟩ => rfl
    | ⟨1, _⟩ => rfl)
  rw [e]
  rfl

/-- The clipping factors of a block, kept as a unit column: at `(p, u)` the factor of row `p`. -/
theorem clipCol_apply (x0 : FVec Ideal S1000x128 .f32) (h : S1000x128.Reduces [1] S1000) (hφ : FKind.Formats .f32)
    (hacc : (0x00000000#32 : BitVec 32) = FKind.add.neutral .f32 hφ) (hc : S1000.ShapeCasts S1000x1) (p : Fin 1000) (u : Fin 1) :
    minimumf (broadcast S1000x1 (Scalar.ofBits (F := Ideal) .f32 0x3F800000#32))
        (divf (broadcast S1000x1 (Scalar.ofBits (F := Ideal) .f32 0x3F7FFF58#32))
          (maximumf (sqrt (shapeCast S1000x1 (multiReduction .add [1] S1000 (mulf x0 x0) 0x00000000#32 h hφ hacc) hc))
            (broadcast S1000x1 (Scalar.ofBits (F := Ideal) .f32 0x3727C5AC#32)))) (ix2 p u)
      = clipFactor (fun k => x0 (ix2 p k)) := by
  show min _ (Ideal.div _ (max (Ideal.sqrt (shapeCast S1000x1 (multiReduction .add [1] S1000 (mulf x0 x0) 0x00000000#32 h hφ hacc) hc (ix2 p u))) _)) = _
  rw [shapeCast_a_a1_apply, rowSq_apply]
  rfl

/-- The four coordinates of the product's operand indices: row and contracted coordinate on the left, contracted
    coordinate and column on the right. -/
theorem projLhs_0 (i : S1000x2048.Idx) (q : dot_S1000x128_S128x2048_S1000x2048_1_0_0_1_n_n.contr.Idx) :
    (dot_S1000x128_S128x2048_S1000x2048_1_0_0_1_n_n.lhsIdx i q 0).val = (i 0).val := by
  unfold DotDims.lhsIdx
  rw [dif_neg (show ¬(0 : Fin S1000x128.rank) ∈ dot_S1000x128_S128x2048_S1000x2048_1_0_0_1_n_n.lhsBatch by decide), dif_pos (show (0 : Fin S1000x128.rank) ∈ dot_S1000x128_S128x2048_S1000x2048_1_0_0_1_n_n.lhsNonContracting by decide)]
  rfl
theorem projLhs_1 (i : S1000x2048.Idx) (q : dot_S1000x128_S128x2048_S1000x2048_1_0_0_1_n_n.contr.Idx) :
    (dot_S1000x128_S128x2048_S1000x2048_1_0_0_1_n_n.lhsIdx i q 1).val = (q ⟨0, by decide⟩).val :=
  dot_S1000x128_S128x2048_S1000x2048_1_0_0_1_n_n.lhsIdx_val_of_single rfl i q
theorem projRhs_0 (i : S1000x2048.Idx) (q : dot_S1000x128_S128x2048_S1000x2048_1_0_0_1_n_n.contr.Idx) :
    (dot_S1000x128_S128x2048_S1000x2048_1_0_0_1_n_n.rhsIdx i q 0).val = (q ⟨0, by decide⟩).val :=
  dot_S1000x128_S128x2048_S1000x2048_1_0_0_1_n_n.rhsIdx_val_of_single rfl i q
theorem projRhs_1 (i : S1000x2048.Idx) (q : dot_S1000x128_S128x2048_S1000x2048_1_0_0_1_n_n.contr.Idx) :
    (dot_S1000x128_S128x2048_S1000x2048_1_0_0_1_n_n.rhsIdx i q 1).val = (i 1).val := by
  unfold DotDims.rhsIdx
  rw [dif_neg (show ¬(1 : Fin S128x2048.rank) ∈ dot_S1000x128_S128x2048_S1000x2048_1_0_0_1_n_n.rhsBatch by decide), dif_pos (show (1 : Fin S128x2048.rank) ∈ dot_S1000x128_S128x2048_S1000x2048_1_0_0_1_n_n.rhsNonContracting by decide)]
  rfl

/-- The product of a 1000 × 128 block with the 128 × 2048 matrix into a zero accumulator, at `(p, q)`:
    `Σₖ l[p, k] · r[k, q]`. -/
theorem proj_apply (l : FVec Ideal S1000x128 .f32) (r : FVec Ideal S128x2048 .f32) (p : Fin 1000) (q : Fin 2048) :
    matmul dot_S1000x128_S128x2048_S1000x2048_1_0_0_1_n_n none l r (constant S1000x2048 .f32 0x00000000#32) (ix2 p q)
      = ∑ k : Fin 128, l (ix2 p k) * r (ix2 k q) := by
  simp only [matmul]
  rw [Ideal.matmul_constant_zero_apply, ← Equiv.sum_comp (contrEquiv1 dot_S1000x128_S128x2048_S1000x2048_1_0_0_1_n_n 128 rfl rfl).symm]
  refine Finset.sum_congr rfl fun k _ => ?_
  have hk := contrEquiv1_symm_val dot_S1000x128_S128x2048_S1000x2048_1_0_0_1_n_n 128 rfl rfl k
  have el : dot_S1000x128_S128x2048_S1000x2048_1_0_0_1_n_n.lhsIdx (ix2 p q) ((contrEquiv1 dot_S1000x128_S128x2048_S1000x2048_1_0_0_1_n_n 128 rfl rfl).symm k) = ix2 p k := funext fun a => Fin.ext (by
    match a with
    | ⟨0, _⟩ => exact projLhs_0 _ _
    | ⟨1, _⟩ => exact (projLhs_1 _ _).trans hk)
  have er : dot_S1000x128_S128x2048_S1000x2048_1_0_0_1_n_n.rhsIdx (ix2 p q) ((contrEquiv1 dot_S1000x128_S128x2048_S1000x2048_1_0_0_1_n_n 128 rfl rfl).symm k) = ix2 k q := funext fun a => Fin.ext (by
    match a with
    | ⟨0, _⟩ => exact (projRhs_0 _ _).trans hk
    | ⟨1, _⟩ => exact projRhs_1 _ _)
  rw [el, er]

/-- THE STORED VALUE AT `(p, q)` is feature `q` of row `p` of the block. -/
theorem payload_apply (x0 : FVec Ideal S1000x128 .f32) (x1 : FVec Ideal S128x2048 .f32) (x2 : FVec Ideal S1x2048 .f32)
    (p : Fin 1000) (q : Fin 2048) :
    k0_pay1 (F := Ideal) x0 x1 x2 (ix2 p q)
      = feature (fun k => x0 (ix2 p k)) (fun k j => x1 (ix2 k j)) (fun j => x2 (ix2 (0 : Fin 1) j)) q := by
  unfold k0_pay1 feature
  dsimp only
  show Ideal.ofBits .f32 0x3E000000#32 * Ideal.cos (matmul _ none (mulf x0 (broadcastTo S1000x128 _ _)) x1 _ (ix2 p q) + broadcastTo S1000x2048 (shapeCast S1x2048 x2 _) _ (ix2 p q)) = _
  rw [proj_apply, broadcastTo_1b_ab_apply, shapeCast_self]
  refine congrArg (fun s => Ideal.ofBits .f32 0x3E000000#32 * Ideal.cos (s + x2 (ix2 (0 : Fin 1) q))) ?_
  refine Finset.sum_congr rfl fun k _ => ?_
  show x0 (ix2 p k) * broadcastTo S1000x128 _ _ (ix2 p k) * x1 (ix2 k q) = _
  rw [broadcastTo_a1_ab_apply]
  exact congrArg (fun s => x0 (ix2 p k) * s * x1 (ix2 k q)) (clipCol_apply x0 _ _ _ _ p 0)

end Cert.KernelIdeal.RowValue

end
-- ==== Proof.KernelArray.lean ====
/-
  From blocks to the whole table, on the kernel's side.

  The grid has 100 points; point `t` works on rows `1000 t … 1000 t + 999` of the point table, on the whole frequency
  matrix and on the whole phase row, and writes back rows `1000 t … 1000 t + 999` of the result. Since an entry of what
  the body stores depends only on its own row of the block (`RowValue.payload_apply`), what point `t` writes back is
  block `t` of ONE table, `RowFeatures.tableFeatures` of the three argument arrays (`flushed_eq`); the 100 blocks cover
  the result array (row `r` lies in the block of point `r / 1000`), so after the run the result array IS that table
  (`final`, `run`). The phase row the region finds is the phase vector recast with a leading unit axis
  (`phaseRow_apply`).
-/
import proofs.«429634_j2010044695328_3_alg».proof.Proof.Gen.KernelIdeal.Value
import proofs.«429634_j2010044695328_3_alg».proof.Proof.KernelRow
import Idealize.ShloMosaic.Lib.StableHlo.Run
import Idealize.ShloMosaic.Lib.Tactic

set_option maxRecDepth 16384

noncomputable section

open scoped BigOperators

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx Cert.RowFeatures
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The table the result array ends holding: the features of the three argument arrays as launched. -/
abbrev table (c : Dev nD) : Buf (Elt Ideal) ((c : Thread nD τ).loc main_v1) :=
  tableFeatures (m ((c : Thread nD τ).loc main_arg0)) (m ((c : Thread nD τ).loc main_arg1)) (m ((c : Thread nD τ).loc main_arg2))

/-- Where each window's block sits at point `t`: the point table's and the result's blocks are block `t` of the rows,
    the matrix and the phase row are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The phase row the region finds is the phase vector with a leading unit axis. -/
theorem phaseRow_apply (c : Dev nD) (u : Fin 1) (j : Fin 2048) :
    (V m c main_v0 : S1x2048.Idx → EReal) (ix2 u j) = (m ((c : Thread nD τ).loc main_arg2) : S2048.Idx → EReal) (ix1 j) := by
  have e : (V m c main_v0 : S1x2048.Idx → EReal)
      = shapeCast S1x2048 (m ((c : Thread nD τ).loc main_arg2) : S2048.Idx → EReal) Gen.shapeCasts_S2048_S1x2048 := by
    dsimp only [Gen.V, Gen.hostOps0]
    after_results
    rfl
  rw [e]
  exact shapeCast_a_1a_apply _ _ u j

/-- Row `p` of point `t`'s block of the point table is row `1000 t + p` of the table. -/
theorem pointBlock_apply (c : Dev nD) (t : Fin cfg0.N) (x : S1000x128.Idx) (k : S100000x128.Idx)
    (hk0 : (k 0).val = 1000 * t.val + (x 0).val) (hk1 : (k 1).val = (x 1).val) :
    (iblk m c 0 t : Vec Ideal S1000x128 .f32) x = (m ((c : Thread nD τ).loc main_arg0) : S100000x128.Idx → EReal) k := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1000 + 1 * (x 0).val = (k 0).val; rw [e0, hk0]; omega
  | ⟨1, _⟩ => show win0_0.index t (1 : Fin 2) * 128 + 1 * (x 1).val = (k 1).val; rw [e1, hk1]; omega

/-- Every point's block of the frequency matrix is the whole matrix. -/
theorem freqBlock_apply (c : Dev nD) (t : Fin cfg0.N) (x : S128x2048.Idx) :
    (iblk m c 1 t : Vec Ideal S128x2048 .f32) x = (m ((c : Thread nD τ).loc main_arg1) : S128x2048.Idx → EReal) x := by
  obtain ⟨-, -, e2, e3, -⟩ := idx_facts t
  unfold iblk
  rw [View.read_apply]
  show V m c main_arg1 _ = _
  rw [V_main_arg1]
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 2048 + 1 * (x 1).val = (x 1).val; rw [e3]; omega

/-- Every point's block of the phase row is the whole row, that is the phase vector. -/
theorem phaseBlock_apply (c : Dev nD) (t : Fin cfg0.N) (u : Fin 1) (j : Fin 2048) :
    (iblk m c 2 t : Vec Ideal S1x2048 .f32) (ix2 u j) = (m ((c : Thread nD τ).loc main_arg2) : S2048.Idx → EReal) (ix1 j) := by
  obtain ⟨-, -, -, -, e4, e5, -⟩ := idx_facts t
  refine Eq.trans ?_ (phaseRow_apply m c u j)
  unfold iblk
  rw [View.read_apply]
  show V m c main_v0 _ = _
  congr 1
  funext a
  apply Fin.ext
  match a with
  | ⟨0, _⟩ => show win0_2.index t (0 : Fin 2) * 1 + 1 * u.val = u.val; rw [e4]; omega
  | ⟨1, _⟩ => show win0_2.index t (1 : Fin 2) * 2048 + 1 * j.val = j.val; rw [e5]; omega

/-- An entry of what the body stores from three blocks is the table's entry `1000 tv` rows further down, when the
    blocks are the table's rows `1000 tv …`, the whole matrix and the phase vector. -/
theorem block_entry (X : S100000x128.Idx → EReal) (W : S128x2048.Idx → EReal) (B : S2048.Idx → EReal)
    (x0 : FVec Ideal S1000x128 .f32) (x1 : FVec Ideal S128x2048 .f32) (x2 : FVec Ideal S1x2048 .f32)
    (y : S1000x2048.Idx) (i : S100000x2048.Idx) (tv : ℕ)
    (hi0 : (i 0).val = 1000 * tv + (y 0).val) (hi1 : (i 1).val = (y 1).val)
    (h0 : ∀ (x : S1000x128.Idx) (k : S100000x128.Idx), (k 0).val = 1000 * tv + (x 0).val → (k 1).val = (x 1).val → x0 x = X k)
    (h1 : ∀ x : S128x2048.Idx, x1 x = W x)
    (h2 : ∀ (u : Fin 1) (j : Fin 2048), x2 (ix2 u j) = B (ix1 j)) :
    k0_pay1 (F := Ideal) x0 x1 x2 y = tableFeatures X W B i := by
  obtain ⟨p, q, rfl⟩ : ∃ (p : Fin 1000) (q : Fin 2048), y = ix2 p q := ⟨y 0, y 1, eq_ix2 y⟩
  obtain ⟨r, q', rfl⟩ : ∃ (r : Fin 100000) (q' : Fin 2048), i = ix2 r q' := ⟨i 0, i 1, eq_ix2 i⟩
  obtain rfl : q' = q := Fin.ext hi1
  rw [RowValue.payload_apply, tableFeatures_apply]
  have e0 : (fun k : Fin 128 => x0 (ix2 p k)) = fun k => X (ix2 r k) := funext fun k => h0 (ix2 p k) (ix2 r k) hi0 rfl
  have e1 : (fun (k : Fin 128) (j : Fin 2048) => x1 (ix2 k j)) = fun k j => W (ix2 k j) := funext fun k => funext fun j => h1 (ix2 k j)
  have e2 : (fun j : Fin 2048 => x2 (ix2 (0 : Fin 1) j)) = fun j => B (ix1 j) := funext fun j => h2 0 j
  rw [e0, e1, e2]

/-- WHAT POINT `t` WRITES BACK is block `t` of the table. -/
theorem flushed_eq (c : Dev nD) (t : Fin cfg0.N) :
    (dats m 0 c).flushed 3 t = ((cfg0.win 3).blk t).view.read (Elt Ideal) (table m c) := by
  rw [Value.flushed3]
  unfold out0_3
  rw [View.canon_unit_zero hz]
  simp only [View.ld_unit_zero (S := S1000x128) hz, View.ld_unit_zero (S := S128x2048) hz, View.ld_unit_zero (S := S1x2048) hz]
  obtain ⟨-, -, -, -, -, -, e6, e7⟩ := idx_facts t
  funext j
  show k0_pay1 (F := Ideal) (iblk m c 0 t) (iblk m c 1 t) (iblk m c 2 t) j = table m c (((cfg0.win 3).blk t).view.emb j)
  refine block_entry _ _ _ (iblk m c 0 t) (iblk m c 1 t) (iblk m c 2 t) j _ t.val ?_ ?_
    (fun x k hk0 hk1 => pointBlock_apply m c t x k hk0 hk1) (fun x => freqBlock_apply m c t x) (fun u j => phaseBlock_apply m c t u j)
  · show win0_3.index t (0 : Fin 2) * 1000 + 1 * (j 0).val = 1000 * t.val + (j 0).val
    rw [e6]; omega
  · show win0_3.index t (1 : Fin 2) * 2048 + 1 * (j 1).val = (j 1).val
    rw [e7]; omega

/-- An index of the result array is in point `t`'s block iff each coordinate is in the block's range on its axis. -/
theorem mem_blk (t : Fin cfg0.N) (i : S100000x2048.Idx) :
    i ∈ ((cfg0.win 3).blk t).view.set ↔ ∀ a : Fin 2, win0_3.index t a * S1000x2048.size a ≤ (i a).val ∧ (i a).val < win0_3.index t a * S1000x2048.size a + S1000x2048.size a := by
  show i ∈ ((View.whole main_v1).slice (win0_3.rect t)).set ↔ _
  rw [View.set_slice_whole, Rect.mem_set_unit]
  exact Iff.rfl

/-- Every entry of the result array is written back by some point: row `r` by point `r / 1000`. -/
theorem cover (i : S100000x2048.Idx) : ∃ t : Fin cfg0.N, (cfg0.win 3).flush t = true ∧ i ∈ ((cfg0.win 3).blk t).view.set := by
  have hi0 : (i 0).val < 100000 := idx2_lt0 i
  have hi1 : (i 1).val < 2048 := idx2_lt1 i
  have hN : cfg0.N = 100 := N_0
  have ht : (i 0).val / 1000 < cfg0.N := by rw [hN]; omega
  obtain ⟨-, -, -, -, -, -, e6, e7⟩ := idx_facts ⟨(i 0).val / 1000, ht⟩
  refine ⟨⟨(i 0).val / 1000, ht⟩, flush0_3 _, ?_⟩
  rw [mem_blk]
  intro a
  match a with
  | ⟨0, _⟩ =>
    show win0_3.index ⟨(i 0).val / 1000, ht⟩ (0 : Fin 2) * 1000 ≤ (i 0).val ∧ (i 0).val < win0_3.index ⟨(i 0).val / 1000, ht⟩ (0 : Fin 2) * 1000 + 1000
    rw [e6]
    show (i 0).val / 1000 * 1000 ≤ (i 0).val ∧ (i 0).val < (i 0).val / 1000 * 1000 + 1000
    omega
  | ⟨1, _⟩ =>
    show win0_3.index ⟨(i 0).val / 1000, ht⟩ (1 : Fin 2) * 2048 ≤ (i 1).val ∧ (i 1).val < win0_3.index ⟨(i 0).val / 1000, ht⟩ (1 : Fin 2) * 2048 + 2048
    rw [e7]
    omega

/-- THE RESULT ARRAY after the run is the table. -/
theorem final (c : Dev nD) : (dats m 0 c).arrAt 3 cfg0.N = table m c :=
  (dats m 0 c).arrAt_eq_of_cover 3 (table m c) (fun t _ => flushed_eq m c t) cover

/-- The kernel's run, read: the result array at the table of features of the arguments, the arguments unchanged. -/
theorem run : θ_run defs (onTc (τ := τ) (main (F := Ideal))) ⟨m, fun _ => 0, ρ⟩ fun r => ∀ c : Dev nD,
      r.2.mem ((c : Thread nD τ).loc main_v1) = table m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.ReferenceRow.lean ====
/-
  What the reference computes, read one entry at a time.

  The reference is a chain of whole-array operations: the row norms (a product, a sum over the 128 coordinates, a
  square root), the clipping factor of each row kept as a unit column and spread over the lanes, the product with the
  point table, the projection on the frequency matrix, the phase row spread over the rows, the cosine and the scale.
  Read at entry `(r, q)` through the generated one-operation-at-a-time lemmas, the chain is
  `RowFeatures.feature` of row `r` of the point table, of the matrix and of the phase vector, at column `q`:
  first the clipped row (`clippedRow_apply`), then the whole chain (`result_apply`).
-/
import proofs.«429634_j2010044695328_3_alg».proof.Proof.Gen.ReferenceIdeal.Read
import proofs.«429634_j2010044695328_3_alg».proof.Proof.RowFeatures

noncomputable section

open scoped BigOperators

namespace Cert.ReferenceIdeal.RowValue

open Cert.ReferenceIdeal Cert.ReferenceIdeal.Read
open Idealize.ShloMosaic Idealize.ShloMosaic.ValueIdx Cert.RowFeatures

/-- The clipped point table at `(r, k)`: the entry times the clipping factor of its row. -/
theorem clippedRow_apply (X : (⟨S100000x128, .f32⟩ : BufTy).Contents (Elt Ideal)) (r : Fin 100000) (k : Fin 128) :
    val_main_v8 (F := Ideal) X (ix2 r k) = X (ix2 r k) * clipFactor (fun k' => X (ix2 r k')) := by
  rw [val_main_v8_apply, val_main_v7_apply, val_main_v6_apply, val_main_v5_apply, val_main_cst_1_apply, val_main_v4_apply,
    val_main_v3_apply, val_main_cst_0_apply, val_main_v2_apply, val_main_v0_apply, val_main_call0_v2_apply,
    val_main_call0_v1_apply, val_main_v1_apply, val_main_cst_apply, val_main_call0_cst_apply]
  have e : ∀ k' : Fin 128, idx_main_call0_v1 (idx_main_call0_v2 (idx_main_v7 (ix2 r k))) k' = ix2 r k' := fun k' =>
    funext fun a => Fin.ext (by
      match a with
      | ⟨0, _⟩ => rfl
      | ⟨1, _⟩ => rfl)
  simp only [e, val_main_call0_v0_apply, Ideal.mulf_def, Ideal.ofBits_def, Ideal.minimumf_def, Ideal.maximumf_def,
    Ideal.hostDivf_def, Ideal.hostUnary_sqrt_def, Ideal.ofBits_zero_f32, zero_add]
  rfl

/-- THE RESULT AT `(r, q)` is feature `q` of row `r` of the point table. -/
theorem result_apply (X : (⟨S100000x128, .f32⟩ : BufTy).Contents (Elt Ideal)) (W : (⟨S128x2048, .f32⟩ : BufTy).Contents (Elt Ideal))
    (B : (⟨S2048, .f32⟩ : BufTy).Contents (Elt Ideal)) (r : Fin 100000) (q : Fin 2048) :
    val_main_v15 (F := Ideal) X W B (ix2 r q)
      = feature (fun k => X (ix2 r k)) (fun k j => W (ix2 k j)) (fun j => B (ix1 j)) q := by
  rw [val_main_v15_apply, val_main_v14_apply, val_main_cst_2_apply, val_main_v13_apply, val_main_v12_apply,
    val_main_v9_apply, val_main_v11_apply, val_main_v10_apply]
  have el : ∀ k : Fin 128, lidx_main_v9 (ix2 r q) k = ix2 r k := fun k => funext fun a => Fin.ext (by
    match a with
    | ⟨0, _⟩ => rfl
    | ⟨1, _⟩ => rfl)
  have er : ∀ k : Fin 128, ridx_main_v9 (ix2 r q) k = ix2 k q := fun k => funext fun a => Fin.ext (by
    match a with
    | ⟨0, _⟩ => rfl
    | ⟨1, _⟩ => rfl)
  have eb : idx_main_v10 (idx_main_v11 (ix2 r q)) = ix1 q := funext fun a => Fin.ext (by
    match a with
    | ⟨0, _⟩ => rfl)
  simp only [el, er, eb, clippedRow_apply, Ideal.mulf_def, Ideal.addf_def, Ideal.ofBits_def, Ideal.hostUnary_cos_def]
  rfl

/-- So the reference's result array is the table of features of its three arguments. -/
theorem result_eq (X : (⟨S100000x128, .f32⟩ : BufTy).Contents (Elt Ideal)) (W : (⟨S128x2048, .f32⟩ : BufTy).Contents (Elt Ideal))
    (B : (⟨S2048, .f32⟩ : BufTy).Contents (Elt Ideal)) :
    val_main_v15 (F := Ideal) X W B = tableFeatures X W B := by
  funext i
  obtain ⟨r, q, rfl⟩ : ∃ (r : Fin 100000) (q : Fin 2048), i = ix2 r q := ⟨i 0, i 1, eq_ix2 i⟩
  exact result_apply X W B r q

end Cert.ReferenceIdeal.RowValue

end
-- ==== Proof.lean ====
/-
  Random Fourier features of a clipped point table: the kernel against its reference, over the extended reals.

  Both programs take a table of 100000 points in 128 coordinates, a 128 × 2048 frequency matrix and 2048 phases. Each
  row `v` of the table is pulled back inside the ball — scaled by `min 1 (c / max ‖v‖ ε)`, `‖v‖ = √(Σₖ vₖ²)` —, projected
  on the matrix, shifted by the phases, and the result is `⅛ · cos` of that, entry by entry
  (Proof/RowFeatures.lean: `feature`, `tableFeatures`).

  The kernel works on 100 blocks of 1000 rows. An entry of what its body stores depends only on its own row of the
  block (Proof/KernelRow.lean), so the 100 blocks written back are the blocks of one table, and they cover the result
  (Proof/KernelArray.lean: `ArrayValue.run`). The reference is a chain of whole-array operations which, read at one
  entry, is the same feature of the same row (Proof/ReferenceRow.lean: `RowValue.result_eq`). The two sides differ only
  in how the sums are spelt — a lane reduction and a block product into a zero accumulator against a host sum from the
  zero word and a host product —, and at the ideal values each is the plain sum over the 128 coordinates; the four float
  words (`1`, `c`, `ε`, `⅛`) are the same on both sides and are never evaluated. No law used needs finiteness, so the
  precondition is not opened.

  The three frames are the generated ones (the reference's is its generated run with the result dropped); the
  idealization rewrote nothing, so `preserves` is `True`.
-/
import proofs.«429634_j2010044695328_3_alg».proof.Defs
import proofs.«429634_j2010044695328_3_alg».proof.Proof.Gen.Kernel
import proofs.«429634_j2010044695328_3_alg».proof.Proof.Gen.Kernel.Skeleton
import proofs.«429634_j2010044695328_3_alg».proof.Proof.Gen.Kernel.Launch
import proofs.«429634_j2010044695328_3_alg».proof.Proof.Gen.Kernel.Points
import proofs.«429634_j2010044695328_3_alg».proof.Proof.Gen.Kernel.Frame
import proofs.«429634_j2010044695328_3_alg».proof.Proof.Gen.KernelIdeal
import proofs.«429634_j2010044695328_3_alg».proof.Proof.Gen.KernelIdeal.Skeleton
import proofs.«429634_j2010044695328_3_alg».proof.Proof.Gen.KernelIdeal.Launch
import proofs.«429634_j2010044695328_3_alg».proof.Proof.Gen.KernelIdeal.Points
import proofs.«429634_j2010044695328_3_alg».proof.Proof.Gen.KernelIdeal.Frame
import proofs.«429634_j2010044695328_3_alg».proof.Proof.Gen.ReferenceIdeal
import proofs.«429634_j2010044695328_3_alg».proof.Proof.Gen.Pre_finite_inputs
import proofs.«429634_j2010044695328_3_alg».proof.Proof.Gen.KernelIdeal.Value
import proofs.«429634_j2010044695328_3_alg».proof.Proof.Gen.ReferenceIdeal.Run
import proofs.«429634_j2010044695328_3_alg».proof.Proof.Gen.ReferenceIdeal.Read
import proofs.«429634_j2010044695328_3_alg».proof.Proof.KernelArray
import proofs.«429634_j2010044695328_3_alg».proof.Proof.ReferenceRow
import Idealize.ShloMosaic.Adequacy
import Idealize.ShloMosaic.Init

noncomputable section

namespace Cert.Proof

open Idealize.ShloMosaic Idealize.ShloMosaic.TcCoe Idealize.SL.Sem

/-- From memories that agree on the three arguments both programs end with the result array at the table of features
    of those arguments: the kernel's by its blocks (`ArrayValue.run`), the reference's by its run read entry by entry
    (`RowValue.result_eq`). -/
theorem algebraic : Cert.algebraic_KernelIdeal_ReferenceIdeal := by
  intro m ρ m' ρ' _ hagree
  refine ⟨fun c => Cert.KernelIdeal.ArrayValue.table m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RowValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
